-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x2048 : Shape := ⟨2, ![32768, 2048]⟩
abbrev S2048 : Shape := ⟨1, ![2048]⟩
abbrev S_ : Shape := ⟨0, ![]⟩

class Facts : Prop where
  bcast_S_S32768x2048 : S_.BroadcastsInDim S32768x2048 (![] : Fin 0 → Fin S32768x2048.rank)
  reducesTo_S32768x2048_S_d0_1 : S32768x2048.ReducesTo [0, 1] S_
  h_S_ : 0 < S_.numel
  bcast_S_S2048 : S_.BroadcastsInDim S2048 (![] : Fin 0 → Fin S2048.rank)
  reducesTo_S2048_S_d0 : S2048.ReducesTo [0] S_

variable [Facts]

def fn_part1 {F : FTy → Type} [FloatOps F] (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  main_v18

def fn {F : FTy → Type} [FloatOps F] (main_arg0 : FVec F S32768x2048 .f32) (main_arg1 : FVec F S2048 .f32) (main_arg2 : FVec F S2048 .f32) (main_arg3 : FVec F S2048 .f32) : IVec S_ 1 :=
  let main_v0 : FVec F S32768x2048 .f32 := Host.absf main_arg0
  let main_cst : FVec F S_ .f32 := constant S_ .f32 0x7F800000#32
  let main_v1 : FVec F S32768x2048 .f32 := broadcastInDim S32768x2048 ![] bcast_S_S32768x2048 main_cst
  let main_v2 : IVec S32768x2048 1 := cmpf .olt main_v0 main_v1
  let main_c : IVec S_ 1 := constantI S_ 1 1#1
  let main_v3 : IVec S_ 1 := (fun x v => Host.reduce IntOp.andi x v reducesTo_S32768x2048_S_d0_1 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_v13 main_v16
-- ==== Kernel.lean ====
abbrev S32768x2048 : Shape := ⟨2, ![32768, 2048]⟩
abbrev S2048 : Shape := ⟨1, ![2048]⟩
abbrev S1x2048 : Shape := ⟨2, ![1, 2048]⟩
abbrev S512x2048 : Shape := ⟨2, ![512, 2048]⟩
abbrev S512x64x32 : Shape := ⟨3, ![512, 64, 32]⟩
abbrev S512x64 : Shape := ⟨2, ![512, 64]⟩
abbrev S512x64x1 : Shape := ⟨3, ![512, 64, 1]⟩

abbrev nBuf : Space → Nat
  | .hbm => 8
  | .vmem => 7
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S32768x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | _, _ => ⟨S32768x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S512x2048_S512x64x32 : S512x2048.ShapeCasts S512x64x32
  reduces_S512x64x32_S512x64 : S512x64x32.Reduces [2] S512x64
  shapeCasts_S512x64_S512x64x1 : S512x64.ShapeCasts S512x64x1
  broadcasts_S512x64x1_S512x64x32 : S512x64x1.Broadcasts S512x64x32
  shapeCasts_S512x64x32_S512x2048 : S512x64x32.ShapeCasts S512x2048
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S32768x2048.size a
  hwx0_0 : ∀ i : grid0.Coords, EltTy.bits .f32 = 32 ∨ (Rect.block (s := S32768x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S32768x2048.size a
  hwx0_4 : ∀ i : grid0.Coords, EltTy.bits .f32 = 32 ∨ (Rect.block (s := S32768x2048) S512x2048.size (cc0_transform_4 i) (hinb0_4 i)).WholeWords (EltTy.packing .f32)

variable [Facts₀]

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x2048 : Shape := ⟨2, ![32768, 2048]⟩
abbrev S2048 : Shape := ⟨1, ![2048]⟩
abbrev S1x2048 : Shape := ⟨2, ![1, 2048]⟩
abbrev S_ : Shape := ⟨0, ![]⟩
abbrev S32768x64x32 : Shape := ⟨3, ![32768, 64, 32]⟩
abbrev S32768x64 : Shape := ⟨2, ![32768, 64]⟩
abbrev S32768x64x1 : Shape := ⟨3, ![32768, 64, 1]⟩

abbrev nBuf : Space → Nat
  | .hbm => 75
  | .vmem => 0
  | .smem => 0
  | _ => 0

abbrev bufTy : (tb : Table) → Fin (tcTables nBuf tb) → BufTy
  | .hbm, ⟨0, _⟩ => ⟨S32768x2048, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S1x2048, .f32⟩
  | .hbm, ⟨5, _⟩ => ⟨S32768x2048, .f32⟩
  | .hbm, ⟨6, _⟩ => ⟨S32768x2048, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S32768x2048, .f32⟩
  | .hbm, ⟨27, _⟩ => ⟨S32768x2048, .f32⟩
  | .hbm, ⟨28, _⟩ => ⟨S_, .f32⟩
  | .hbm, ⟨29, _⟩ => ⟨S32768x2048, .f32⟩
  | .hbm, ⟨30, _⟩ => ⟨S32768x2048, .f32⟩
  | .hbm, ⟨31, _⟩ => ⟨S32768x2048, .f32⟩
  | .hbm, ⟨32, _⟩ => ⟨S_, .f32⟩
  | .hbm, ⟨33, _⟩ => ⟨S32768x2048, .f32⟩
  | .hbm, ⟨34, _⟩ => ⟨S32768x2048, .f32⟩
  | .hbm, ⟨35, _⟩ => ⟨S32768x2048, .f32⟩
  | .hbm, ⟨36, _⟩ => ⟨S_, .f32⟩
  | .hbm, ⟨37, _⟩ => ⟨S32768x2048, .f32⟩
  | .hbm, ⟨38, _⟩ => ⟨S32768x2048, .f32⟩
  | .hbm, ⟨39, _⟩ => ⟨S_, .f32⟩
  | .hbm, ⟨40, _⟩ => ⟨S32768x2048, .f32⟩
  | .hbm, ⟨41, _⟩ => ⟨S32768x2048, .f32⟩
  | .hbm, ⟨42, _⟩ => ⟨S32768x2048, .f32⟩
  | .hbm, ⟨43, _⟩ => ⟨S32768x2048, .f32⟩
  | .hbm, ⟨44, _⟩ => ⟨S32768x64x32, .f32⟩
  | .hbm, ⟨45, _⟩ => ⟨S_, .f32⟩
  | .hbm, ⟨46, _⟩ => ⟨S32768x64, .f32⟩
  | .hbm, ⟨47, _⟩ => ⟨S32768x64x1, .f32⟩
  | .hbm, ⟨48, _⟩ => ⟨S_, .f32⟩
  | .hbm, ⟨49, _⟩ => ⟨S32768x64x1, .f32⟩
  | .hbm, ⟨50, _⟩ => ⟨S32768x64x1, .f32⟩
  | .hbm, ⟨51, _⟩ => ⟨S32768x64x32, .f32⟩
  | .hbm, ⟨52, _⟩ => ⟨S32768x64x32, .f32⟩
  | .hbm, ⟨53, _⟩ => ⟨S32768x64x32, .f32⟩
  | .hbm, ⟨54, _⟩ => ⟨S_, .f32⟩
  | .hbm, ⟨55, _⟩ => ⟨S32768x64, .f32⟩
  | .hbm, ⟨56, _⟩ => ⟨S32768x64x1, .f32⟩
  | .hbm, ⟨57, _⟩ => ⟨S_, .f32⟩
  | .hbm, ⟨58, _⟩ => ⟨S32768x64x1, .f32⟩
  | .hbm, ⟨59, _⟩ => ⟨S32768x64x1, .f32⟩
  | .hbm, ⟨60, _⟩ => ⟨S_, .f32⟩
  | .hbm, ⟨61, _⟩ => ⟨S32768x64x1, .f32⟩
  | .hbm, ⟨62, _⟩ => ⟨S32768x64x1, .f32⟩
  | .hbm, ⟨63, _⟩ => ⟨S32768x64x1, .f32⟩
  | .hbm, ⟨64, _⟩ => ⟨S32768x64x32, .f32⟩
  | .hbm, ⟨65, _⟩ => ⟨S32768x64x32, .f32⟩
  | .hbm, ⟨66, _⟩ => ⟨S32768x64x32, .f32⟩
  | .hbm, ⟨67, _⟩ => ⟨S32768x64x32, .f32⟩
  | .hbm, ⟨68, _⟩ => ⟨S32768x2048, .f32⟩
  | .hbm, ⟨69, _⟩ => ⟨S1x2048, .f32⟩
  | .hbm, ⟨70, _⟩ => ⟨S32768x2048, .f32⟩
  | .hbm, ⟨71, _⟩ => ⟨S32768x2048, .f32⟩
  | .hbm, ⟨72, _⟩ => ⟨S1x2048, .f32⟩
  | .hbm, ⟨73, _⟩ => ⟨S32768x2048, .f32⟩
  | .hbm, ⟨74, _⟩ => ⟨S32768x2048, .f32⟩
  | _, _ => ⟨S32768x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_cst_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_cst_3 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_v11 : Ref sig .tc := ⟨.hbm, 30, rfl⟩
abbrev main_v12 : Ref sig .tc := ⟨.hbm, 31, rfl⟩
abbrev main_cst_4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_5 : Ref sig .tc := ⟨.hbm, 36, rfl⟩
abbrev main_v16 : Ref sig .tc := ⟨.hbm, 37, rfl⟩
abbrev main_v17 : Ref sig .tc := ⟨.hbm, 38, rfl⟩
abbrev main_cst_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_cst_8 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_9 : Ref sig .tc := ⟨.hbm, 54, rfl⟩
abbrev main_v30 : Ref sig .tc := ⟨.hbm, 55, rfl⟩
abbrev main_v31 : Ref sig .tc := ⟨.hbm, 56, rfl⟩
abbrev main_cst_10 : Ref sig .tc := ⟨.hbm, 57, rfl⟩
abbrev main_v32 : Ref sig .tc := ⟨.hbm, 58, rfl⟩
abbrev main_v33 : Ref sig .tc := ⟨.hbm, 59, rfl⟩
abbrev main_cst_11 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  shapeCasts_S32768x2048_S32768x64x32 : S32768x2048.ShapeCasts S32768x64x32
  reducesTo_S32768x64x32_S32768x64_d2 : S32768x64x32.ReducesTo [2] S32768x64
  h_S_ : 0 < S_.numel
  bcast_S32768x64_S32768x64x1_0_1 : S32768x64.BroadcastsInDim S32768x64x1 (![0, 1] : Fin 2 → Fin S32768x64x1.rank)
  bcast_S_S32768x64x1 : S_.BroadcastsInDim S32768x64x1 (![] : Fin 0 → Fin S32768x64x1.rank)
  bcast_S32768x64x1_S32768x64x32_0_1_2 : S32768x64x1.BroadcastsInDim S32768x64x32 (![0, 1, 2] : Fin 3 → Fin S32768x64x32.rank)
  shapeCasts_S32768x64x32_S32768x2048 : S32768x64x32.ShapeCasts S32768x2048

variable [Facts₀]

class Facts : Prop extends Facts₀ where

variable [Facts]
-- ==== Proof.Spec.lean ====
/-
  The mathematics both programs compute, stated once on the extended reals.

  A row of 2048 channels is cut into 64 groups of 32 consecutive channels (channel `32 g + l` is lane `l` of
  group `g`). Each entry first gets the bias added, is clamped to [-1, 1] (hard-tanh) and passed through the fast
  mish `c · T(softplus c)`, where `softplus c = max c 0 + log(1 + e^{-|c|})` and `T` is the rational odd
  approximation `t (27 + t²) / (27 + 9 t²)` of tanh at `t` = the argument clamped to [-5, 5]. Each group of 32 activations
  is then normalised: subtract the group's mean, multiply by `1/√(variance + ε)` with the population variance
  (the mean of the squared deviations), and finally every channel is scaled by its `gamma` and shifted by its `beta`.
  Nothing here depends on how rows are tiled: a row's output is a function of that row alone.
-/
import Idealize.ShloMosaic.PureOps.Ideal
import Idealize.ShloMosaic.PureOps.Ideal.Laws
import Idealize.ShloMosaic.Lib.ValueIdx

noncomputable section

open scoped BigOperators

namespace Cert.GroupNormSpec

open Idealize.ShloMosaic Idealize.ShloMosaic.ValueIdx

/-! ## Channels as (group, lane) -/

/-- Channel `32 g + l`: lane `l` of group `g`. -/
def col (g : Fin 64) (l : Fin 32) : Fin 2048 := ⟨g.val * 32 + l.val, by have := g.isLt; have := l.isLt; omega⟩
/-- The group a channel lies in. -/
def grp (q : Fin 2048) : Fin 64 := ⟨q.val / 32, by have := q.isLt; omega⟩
/-- A channel's lane inside its group. -/
def lane (q : Fin 2048) : Fin 32 := ⟨q.val % 32, Nat.mod_lt _ (by decide)⟩

theorem col_val (g : Fin 64) (l : Fin 32) : (col g l).val = g.val * 32 + l.val := rfl
theorem grp_val (q : Fin 2048) : (grp q).val = q.val / 32 := rfl
theorem lane_val (q : Fin 2048) : (lane q).val = q.val % 32 := rfl

/-- Every channel is the lane of its group. -/
theorem col_grp_lane (q : Fin 2048) : col (grp q) (lane q) = q :=
  Fin.ext (by rw [col_val, grp_val, lane_val]; omega)

/-! ## The activation -/

/-- Hard-tanh: the clamp to [-1, 1]. -/
def hardtanh (v : EReal) : EReal :=
  min (Ideal.ofBits .f32 0x3F800000#32) (max (Ideal.ofBits .f32 0xBF800000#32) v)

/-- The stable softplus `max c 0 + log(1 + e^{-|c|})`, with `|c| = max c (-c)`. -/
def softplus (c : EReal) : EReal := max c 0 + Ideal.log1p (Ideal.exp (-(max c (-c))))

/-- The rational approximation of tanh, `t (27 + t²) / (27 + 9 t²)` at `t` the clamp of `s` to [-5, 5]. -/
def tanhRat (s : EReal) : EReal :=
  Ideal.div
    (min (Ideal.ofBits .f32 0x40A00000#32) (max (Ideal.ofBits .f32 0xC0A00000#32) s)
      * (Ideal.ofBits .f32 0x41D80000#32
          + min (Ideal.ofBits .f32 0x40A00000#32) (max (Ideal.ofBits .f32 0xC0A00000#32) s)
            * min (Ideal.ofBits .f32 0x40A00000#32) (max (Ideal.ofBits .f32 0xC0A00000#32) s)))
    (Ideal.ofBits .f32 0x41D80000#32
      + Ideal.ofBits .f32 0x41100000#32
        * (min (Ideal.ofBits .f32 0x40A00000#32) (max (Ideal.ofBits .f32 0xC0A00000#32) s)
            * min (Ideal.ofBits .f32 0x40A00000#32) (max (Ideal.ofBits .f32 0xC0A00000#32) s)))

/-- Hard-tanh followed by the fast mish `c · T(softplus c)`. -/
def act (v : EReal) : EReal := hardtanh v * tanhRat (softplus (hardtanh v))

/-! ## Normalising one group of 32 -/

/-- The group's mean: the sum of its 32 entries over 32. -/
def gmean (u : Fin 32 → EReal) : EReal := Ideal.div (∑ k, u k) (Ideal.ofBits .f32 0x42000000#32)

/-- Lane `l` of the normalised group: the deviation from the mean times `1/√(var + ε)`, `var` the mean of the
    squared deviations. -/
def gnorm (u : Fin 32 → EReal) (l : Fin 32) : EReal :=
  (u l - gmean u)
    * Ideal.rsqrt (Ideal.div (∑ k, (u k - gmean u) * (u k - gmean u)) (Ideal.ofBits .f32 0x42000000#32)
        + Ideal.ofBits .f32 0x3727C5AC#32)

/-! ## One row, and the whole array -/

/-- Channel `q` of a row's output from the row's biased entries `v`: the channel's group is activated and normalised,
    the channel's lane of it scaled by `ga q` and shifted by `be q`. -/
def rowOut (v ga be : Fin 2048 → EReal) (q : Fin 2048) : EReal :=
  gnorm (fun k => act (v (col (grp q) k))) (lane q) * ga q + be q

/-- The result array as one function of the four argument arrays, index by index. -/
def G (X : (⟨2, ![32768, 2048]⟩ : Shape).Idx → EReal) (b ga be : (⟨1, ![2048]⟩ : Shape).Idx → EReal) :
    (⟨2, ![32768, 2048]⟩ : Shape).Idx → EReal :=
  fun i => rowOut (fun q => X (ix2 (i 0) q) + b (ix1 q)) (fun q => ga (ix1 q)) (fun q => be (ix1 q)) (i 1)

end Cert.GroupNormSpec

end
-- ==== Proof.Layout.lean ====
/-
  How the kernel's tile of 512 rows is re-laid between its flat form [512, 2048] and its grouped form [512, 64, 32],
  read one element at a time: reshapes keep the row-major position, so channel `32 g + l` of a row is lane `l` of the
  row's group `g` and back; a per-group value kept with a unit last axis is the value itself, and broadcasting that
  unit axis over the 32 lanes repeats it; a sum along the lane axis at (row, group) runs over the 32 lanes of that group.
-/
import proofs.«164090_j25056839205050_1_alg».proof.KernelIdeal
import proofs.«164090_j25056839205050_1_alg».proof.Proof.Spec
import Idealize.ShloMosaic.Lib.Pipeline.Value
import Idealize.ShloMosaic.Lib.ValueLayout
import Idealize.ShloMosaic.PureOps.Ideal.Laws

noncomputable section

open scoped BigOperators

namespace Cert.KernelIdeal.Layout

open Cert.KernelIdeal Cert.GroupNormSpec Idealize.ShloMosaic Idealize.ShloMosaic.ValueIdx

variable {α : Type}

/-- Grouping a flat tile: entry (row `p`, group `g`, lane `k`) is the flat tile's entry at channel `32 g + k`. -/
theorem split_groups (x : S512x2048.Idx → α) (h : S512x2048.ShapeCasts S512x64x32) (p : Fin 512) (g : Fin 64) (k : Fin 32) :
    shapeCast S512x64x32 x h (ix3 p g k) = x (ix2 p (col g k)) :=
  shapeCast_apply x h (ix3 p g k) (ix2 p (col g k)) (by
    rewrite [Shape.rowMajor_val_two, Shape.rowMajor_val_three]
    have hp := p.isLt; have hg := g.isLt; have hk := k.isLt
    show p.val * 2048 + (g.val * 32 + k.val) = (p.val * 64 + g.val) * 32 + k.val
    omega)

/-- Flattening a grouped tile: entry (row `p`, channel `q`) is the grouped tile's entry at `q`'s group and lane. -/
theorem merge_groups (x : S512x64x32.Idx → α) (h : S512x64x32.ShapeCasts S512x2048) (p : Fin 512) (q : Fin 2048) :
    shapeCast S512x2048 x h (ix2 p q) = x (ix3 p (grp q) (lane q)) :=
  shapeCast_apply x h (ix2 p q) (ix3 p (grp q) (lane q)) (by
    rewrite [Shape.rowMajor_val_three, Shape.rowMajor_val_two]
    have hp := p.isLt; have hq := q.isLt
    show (p.val * 64 + q.val / 32) * 32 + q.val % 32 = p.val * 2048 + q.val
    omega)

/-- A per-group value given a unit last axis is unchanged. -/
theorem keep_unit (x : S512x64.Idx → α) (h : S512x64.ShapeCasts S512x64x1) (p : Fin 512) (g : Fin 64) (u : Fin 1) :
    shapeCast S512x64x1 x h (ix3 p g u) = x (ix2 p g) :=
  shapeCast_apply x h (ix3 p g u) (ix2 p g) (by
    rewrite [Shape.rowMajor_val_two, Shape.rowMajor_val_three]
    have hu := u.isLt
    show p.val * 64 + g.val = (p.val * 64 + g.val) * 1 + u.val
    omega)

/-- Broadcasting the unit last axis over the 32 lanes repeats the group's value on every lane. -/
theorem over_lanes (x : S512x64x1.Idx → α) (h : S512x64x1.Broadcasts S512x64x32) (p : Fin 512) (g : Fin 64) (k : Fin 32) :
    broadcastTo S512x64x32 x h (ix3 p g k) = x (ix3 p g (0 : Fin 1)) :=
  broadcastTo_apply x h (ix3 p g k) (ix3 p g (0 : Fin 1)) (fun a => match a with
    | ⟨0, _⟩ => by show p.val = if (512 : Nat) = 1 then 0 else p.val; rw [if_neg (by decide)]
    | ⟨1, _⟩ => by show g.val = if (64 : Nat) = 1 then 0 else g.val; rw [if_neg (by decide)]
    | ⟨2, _⟩ => by show 0 = if (1 : Nat) = 1 then 0 else k.val; rw [if_pos rfl])

/-- The one row of per-channel parameters broadcast down the tile's 512 rows. -/
theorem down_rows (x : S1x2048.Idx → α) (h : S1x2048.Broadcasts S512x2048) (p : Fin 512) (q : Fin 2048) :
    broadcastTo S512x2048 x h (ix2 p q) = x (ix2 (0 : Fin 1) q) :=
  broadcastTo_1b_ab_apply x h p q

/-- The lane sum of a grouped tile at (row, group), on the extended reals, is the sum over the group's 32 lanes. -/
theorem lane_sum (src : FVec Ideal S512x64x32 .f32) (h : S512x64x32.Reduces [2] S512x64) (hφ : FKind.Formats .f32)
    (hacc : (0x00000000#32 : BitVec 32) = 0x00000000#32) (p : Fin 512) (g : Fin 64) :
    multiReduction .add [2] S512x64 src 0x00000000#32 h hφ hacc (ix2 p g) = ∑ k : Fin 32, src (ix3 p g k) :=
  (Ideal.multiReduction_add_single src 0x00000000#32 h hφ hacc (ix2 p g)).trans
    (Finset.sum_congr rfl fun k _ => congrArg src (funext fun a => Fin.ext (by
      match a with | ⟨0, _⟩ => rfl | ⟨1, _⟩ => rfl | ⟨2, _⟩ => rfl)))

end Cert.KernelIdeal.Layout

end
-- ==== Proof.Payload.lean ====
/-
  What the kernel body stores for one tile of 512 rows, read at one entry (row `p`, channel `q`): the body adds the
  bias row, activates every entry, regroups each row into 64 groups of 32, takes each group's mean and the mean of the
  squared deviations by lane sums, scales the deviations by `1/√(var + ε)`, flattens back and applies the scale and
  shift rows. At an entry this is the specification's `rowOut` of the tile's row `p`. The only places where the
  body's text and the specification's differ are `0 - |c|` for `-|c|` and the spelling of the literals.
-/
import proofs.«164090_j25056839205050_1_alg».proof.Proof.Gen.KernelIdeal.Frame
import proofs.«164090_j25056839205050_1_alg».proof.Proof.Spec
import proofs.«164090_j25056839205050_1_alg».proof.Proof.Layout

noncomputable section

open scoped BigOperators

namespace Cert.KernelIdeal.Payload

open Cert.KernelIdeal Cert.KernelIdeal.Gen Cert.KernelIdeal.Layout Cert.GroupNormSpec Idealize.ShloMosaic Idealize.ShloMosaic.ValueIdx

/-- The absolute value of an extended real is the larger of it and its negation. -/
theorem abs_word (x : EReal) : FloatOps.absf (F := Ideal) (φ := .f32) x = max x (-x) := rfl

/-- Lane `k` of group `g` of row `p` of the activated tile: the activation of the tile's entry at channel
    `32 g + k` plus that channel's bias. -/
theorem activated (x0 : Vec Ideal S512x2048 .f32) (x1 : Vec Ideal S1x2048 .f32) (p : Fin 512) (g : Fin 64) (k : Fin 32) :
    k0_pay4 x0 x1 (ix3 p g k) = act (x0 (ix2 p (col g k)) + x1 (ix2 (0 : Fin 1) (col g k))) := by
  unfold k0_pay4
  refine (split_groups _ _ p g k).trans ?_
  simp only [mulf, addf, subf, divf, maximumf, minimumf, absf, exp, log1p, broadcast]
  simp only [down_rows, shapeCast_self]
  simp only [Ideal.ofBits_def, Ideal.addf_def, Ideal.subf_def, Ideal.mulf_def, Ideal.divf_def, Ideal.maximumf_def,
    Ideal.minimumf_def, Ideal.exp_def, Ideal.log1p_def, abs_word, Ideal.ofBits_zero_f32, zero_sub]
  simp only [act, hardtanh, softplus, tanhRat]

/-- The group mean the body keeps (with a unit lane axis): the lane sum of the activated group over 32. -/
theorem group_mean (x0 : Vec Ideal S512x2048 .f32) (x1 : Vec Ideal S1x2048 .f32) (p : Fin 512) (g : Fin 64) (u : Fin 1) :
    k0_pay5 x0 x1 (ix3 p g u) = gmean (fun k => k0_pay4 x0 x1 (ix3 p g k)) := by
  unfold k0_pay5
  simp only [divf, broadcast, keep_unit]
  simp only [Ideal.ofBits_def, Ideal.divf_def, gmean]
  exact congrArg (fun s => Ideal.div s _) (lane_sum _ _ _ _ p g)

/-- The stored value at (row `p`, channel `q`) from the activated tile `v35` and the kept means `v39`: the deviation
    at `q`'s group and lane, times `1/√` of (the mean of the group's squared deviations plus ε), times the scale
    row at `q`, plus the shift row at `q`. -/
theorem stored (v4 v6 : FVec Ideal S1x2048 .f32) (v35 : FVec Ideal S512x64x32 .f32) (v39 : FVec Ideal S512x64x1 .f32)
    (p : Fin 512) (q : Fin 2048) :
    k0_pay1 v4 v6 v35 v39 (ix2 p q)
      = (v35 (ix3 p (grp q) (lane q)) - v39 (ix3 p (grp q) (0 : Fin 1)))
          * Ideal.rsqrt (Ideal.div
              (∑ k : Fin 32, (v35 (ix3 p (grp q) k) - v39 (ix3 p (grp q) (0 : Fin 1)))
                * (v35 (ix3 p (grp q) k) - v39 (ix3 p (grp q) (0 : Fin 1))))
              (Ideal.ofBits .f32 0x42000000#32) + Ideal.ofBits .f32 0x3727C5AC#32)
          * v4 (ix2 (0 : Fin 1) q) + v6 (ix2 (0 : Fin 1) q) := by
  unfold k0_pay1
  simp only [mulf, addf, subf, divf, rsqrt, broadcast, merge_groups, down_rows, over_lanes, keep_unit]
  simp only [Ideal.ofBits_def, Ideal.addf_def, Ideal.subf_def, Ideal.mulf_def, Ideal.divf_def, Ideal.rsqrt_def]
  refine congrArg (fun s => (v35 (ix3 p (grp q) (lane q)) - v39 (ix3 p (grp q) (0 : Fin 1)))
      * Ideal.rsqrt (Ideal.div s (Ideal.ofBits .f32 0x42000000#32) + Ideal.ofBits .f32 0x3727C5AC#32)
      * v4 (ix2 (0 : Fin 1) q) + v6 (ix2 (0 : Fin 1) q)) ?_
  refine (lane_sum _ _ _ _ p (grp q)).trans (Finset.sum_congr rfl fun k _ => ?_)
  simp only [mulf, subf, over_lanes, Ideal.mulf_def, Ideal.subf_def]

/-- With the activated tile and the means put in, the stored value is the specification's row output. -/
theorem tile_entry (x0 : Vec Ideal S512x2048 .f32) (x1 x2 x3 : Vec Ideal S1x2048 .f32) (p : Fin 512) (q : Fin 2048) :
    k0_pay1 (k0_pay2 x2) (k0_pay3 x3) (k0_pay4 x0 x1) (k0_pay5 x0 x1) (ix2 p q)
      = rowOut (fun q' => x0 (ix2 p q') + x1 (ix2 (0 : Fin 1) q')) (fun q' => x2 (ix2 (0 : Fin 1) q'))
          (fun q' => x3 (ix2 (0 : Fin 1) q')) q := by
  refine (stored _ _ _ _ p q).trans ?_
  simp only [group_mean, activated, k0_pay2, k0_pay3, shapeCast_self]
  rfl

/-- The body's loads and its one store are at the tile's origin. -/
theorem origin : (![0, 0] : Fin 2 → Nat) = fun _ => 0 := funext fun a => by fin_cases a <;> rfl

/-- What the body leaves in the output tile, from the four input tiles, at (row `p`, channel `q`). -/
theorem out_entry (x0 : Vec Ideal S512x2048 .f32) (x1 x2 x3 : Vec Ideal S1x2048 .f32) (p : Fin 512) (q : Fin 2048) :
    out0_4 x0 x1 x2 x3 (ix2 p q)
      = rowOut (fun q' => x0 (ix2 p q') + x1 (ix2 (0 : Fin 1) q')) (fun q' => x2 (ix2 (0 : Fin 1) q'))
          (fun q' => x3 (ix2 (0 : Fin 1) q')) q := by
  unfold out0_4
  rw [View.canon_unit_zero origin]
  simp only [View.ld_unit_zero (S := S512x2048) origin, View.ld_unit_zero (S := S1x2048) origin]
  exact tile_entry x0 x1 x2 x3 p q

end Cert.KernelIdeal.Payload

end
-- ==== Proof.ArrayValue.lean ====
/-
  From tiles to the array. Grid point `t` of the 64 works on rows `512 t … 512 t + 511` of the input and writes the
  same rows of the output; the three per-channel parameter rows are the same one row at every point, and are the
  argument vectors re-laid as one row of 2048. What a point writes back is therefore the specification's function
  of the ARGUMENT arrays read through that point's rows (a row's output depends on that row alone), the 64 tiles
  cover every row, and so the output array after the run is that function, whole.
-/
import proofs.«164090_j25056839205050_1_alg».proof.Proof.Gen.KernelIdeal.Value
import proofs.«164090_j25056839205050_1_alg».proof.Proof.Payload
import Idealize.ShloMosaic.Lib.StableHlo.Run
import Idealize.ShloMosaic.Lib.ValueLayout

noncomputable section

namespace Cert.KernelIdeal.ArrayValue

open Cert.KernelIdeal Cert.KernelIdeal.Gen Cert.KernelIdeal.Payload Cert.GroupNormSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The printed index maps over the 64 grid points: the input tile and the output tile are tile `t` of the rows and
    span all channels; each parameter window is its whole one-row array at every point. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Row `p` of tile `t` is row `512 t + p` of the array. -/
def row (t : Fin cfg0.N) (p : Fin 512) : Fin 32768 :=
  ⟨t.val * 512 + p.val, by have h := t.isLt; have hN : cfg0.N = 64 := N_0; have hp := p.isLt; omega⟩

theorem row_val (t : Fin cfg0.N) (p : Fin 512) : (row t p).val = t.val * 512 + p.val := rfl

/-- The input tile at point `t` holds rows `512 t + p` of the first argument. -/
theorem x_block (c : Dev nD) (t : Fin cfg0.N) (p : Fin 512) (q : Fin 2048) :
    iblk m c 0 t (ix2 p q) = m ((c : Thread nD τ).loc main_arg0) (ix2 (row t p) q) := by
  show V m c main_arg0 (((cfg0.win 0).blk t).view.emb (ix2 p q)) = _
  rw [V_main_arg0]
  refine congrArg (m ((c : Thread nD τ).loc main_arg0)) (funext fun a => Fin.ext ?_)
  obtain ⟨e0, e1, -⟩ := index_facts t
  match a with
  | ⟨0, _⟩ => show win0_0.index t (0 : Fin 2) * 512 + 1 * p.val = t.val * 512 + p.val; rw [e0]; omega
  | ⟨1, _⟩ => show win0_0.index t (1 : Fin 2) * 2048 + 1 * q.val = q.val; rw [e1]; omega

/-- The bias window at any point is the second argument as one row. -/
theorem bias_block (c : Dev nD) (t : Fin cfg0.N) (q : Fin 2048) :
    iblk m c 1 t (ix2 (0 : Fin 1) q) = m ((c : Thread nD τ).loc main_arg1) (ix1 q) := by
  show V m c main_v0 (((cfg0.win 1).blk t).view.emb (ix2 (0 : Fin 1) q)) = _
  have hi : ((cfg0.win 1).blk t).view.emb (ix2 (0 : Fin 1) q) = ix2 (0 : Fin 1) q := funext fun a => Fin.ext (by
    obtain ⟨-, -, ea, eb, -⟩ := index_facts t
    match a with
    | ⟨0, _⟩ => show win0_1.index t (0 : Fin 2) * 1 + 1 * 0 = 0; rw [ea]
    | ⟨1, _⟩ => show win0_1.index t (1 : Fin 2) * 2048 + 1 * q.val = q.val; rw [eb]; omega)
  rw [hi]
  have e : (V m c main_v0 : S1x2048.Idx → EReal)
      = shapeCast S1x2048 (m ((c : Thread nD τ).loc main_arg1)) shapeCasts_S2048_S1x2048 := by
    dsimp only [V, hostOps0]; after_results; rfl
  exact (congrFun e (ix2 (0 : Fin 1) q)).trans (shapeCast_a_1a_apply _ _ (0 : Fin 1) q)

/-- The scale window at any point is the third argument as one row. -/
theorem gamma_block (c : Dev nD) (t : Fin cfg0.N) (q : Fin 2048) :
    iblk m c 2 t (ix2 (0 : Fin 1) q) = m ((c : Thread nD τ).loc main_arg2) (ix1 q) := by
  show V m c main_v1 (((cfg0.win 2).blk t).view.emb (ix2 (0 : Fin 1) q)) = _
  have hi : ((cfg0.win 2).blk t).view.emb (ix2 (0 : Fin 1) q) = ix2 (0 : Fin 1) q := funext fun a => Fin.ext (by
    obtain ⟨-, -, -, -, ea, eb, -⟩ := index_facts t
    match a with
    | ⟨0, _⟩ => show win0_2.index t (0 : Fin 2) * 1 + 1 * 0 = 0; rw [ea]
    | ⟨1, _⟩ => show win0_2.index t (1 : Fin 2) * 2048 + 1 * q.val = q.val; rw [eb]; omega)
  rw [hi]
  have e : (V m c main_v1 : S1x2048.Idx → EReal)
      = shapeCast S1x2048 (m ((c : Thread nD τ).loc main_arg2)) shapeCasts_S2048_S1x2048 := by
    dsimp only [V, hostOps0]; after_results; rfl
  exact (congrFun e (ix2 (0 : Fin 1) q)).trans (shapeCast_a_1a_apply _ _ (0 : Fin 1) q)

/-- The shift window at any point is the fourth argument as one row. -/
theorem beta_block (c : Dev nD) (t : Fin cfg0.N) (q : Fin 2048) :
    iblk m c 3 t (ix2 (0 : Fin 1) q) = m ((c : Thread nD τ).loc main_arg3) (ix1 q) := by
  show V m c main_v2 (((cfg0.win 3).blk t).view.emb (ix2 (0 : Fin 1) q)) = _
  have hi : ((cfg0.win 3).blk t).view.emb (ix2 (0 : Fin 1) q) = ix2 (0 : Fin 1) q := funext fun a => Fin.ext (by
    obtain ⟨-, -, -, -, -, -, ea, eb, -⟩ := index_facts t
    match a with
    | ⟨0, _⟩ => show win0_3.index t (0 : Fin 2) * 1 + 1 * 0 = 0; rw [ea]
    | ⟨1, _⟩ => show win0_3.index t (1 : Fin 2) * 2048 + 1 * q.val = q.val; rw [eb]; omega)
  rw [hi]
  have e : (V m c main_v2 : S1x2048.Idx → EReal)
      = shapeCast S1x2048 (m ((c : Thread nD τ).loc main_arg3)) shapeCasts_S2048_S1x2048 := by
    dsimp only [V, hostOps0]; after_results; rfl
  exact (congrFun e (ix2 (0 : Fin 1) q)).trans (shapeCast_a_1a_apply _ _ (0 : Fin 1) q)

/-- What point `t` writes back is tile `t` of the specification's function of the argument arrays. -/
theorem flushed_is_block (c : Dev nD) (t : Fin cfg0.N) :
    (dats m 0 c).flushed 4 t = ((cfg0.win 4).blk t).view.read (Elt Ideal) (G (m ((c : Thread nD τ).loc main_arg0)) (m ((c : Thread nD τ).loc main_arg1)) (m ((c : Thread nD τ).loc main_arg2)) (m ((c : Thread nD τ).loc main_arg3))) := by
  rw [Value.flushed4]
  funext (y : S512x2048.Idx)
  obtain ⟨p, q, rfl⟩ : ∃ (p : Fin 512) (q : Fin 2048), y = ix2 p q := ⟨y 0, y 1, eq_ix2 y⟩
  show out0_4 (iblk m c 0 t) (iblk m c 1 t) (iblk m c 2 t) (iblk m c 3 t) (ix2 p q)
    = (G (m ((c : Thread nD τ).loc main_arg0)) (m ((c : Thread nD τ).loc main_arg1)) (m ((c : Thread nD τ).loc main_arg2)) (m ((c : Thread nD τ).loc main_arg3))) (((cfg0.win 4).blk t).view.emb (ix2 p q))
  refine (out_entry (iblk m c 0 t) (iblk m c 1 t) (iblk m c 2 t) (iblk m c 3 t) p q).trans ?_
  have hi : ((cfg0.win 4).blk t).view.emb (ix2 p q) = ix2 (row t p) q := funext fun a => Fin.ext (by
    obtain ⟨-, -, -, -, -, -, -, -, e8, e9⟩ := index_facts t
    match a with
    | ⟨0, _⟩ => show win0_4.index t (0 : Fin 2) * 512 + 1 * p.val = t.val * 512 + p.val; rw [e8]; omega
    | ⟨1, _⟩ => show win0_4.index t (1 : Fin 2) * 2048 + 1 * q.val = q.val; rw [e9]; omega)
  rw [hi]
  simp only [x_block, bias_block, gamma_block, beta_block]
  rfl

/-- An index is in point `t`'s output tile iff each coordinate is in the tile's range on its axis. -/
theorem mem_block (t : Fin cfg0.N) (i : S32768x2048.Idx) :
    i ∈ ((cfg0.win 4).blk t).view.set ↔ ∀ a : Fin 2, win0_4.index t a * S512x2048.size a ≤ (i a).val
      ∧ (i a).val < win0_4.index t a * S512x2048.size a + S512x2048.size a := by
  show i ∈ ((View.whole main_v3).slice (win0_4.rect t)).set ↔ _
  rw [View.set_slice_whole, Rect.mem_set_unit]
  exact Iff.rfl

/-- Every index of the output lies in the tile of the point its row falls in. -/
theorem covered (i : S32768x2048.Idx) :
    ∃ t : Fin cfg0.N, (cfg0.win 4).flush t = true ∧ i ∈ ((cfg0.win 4).blk t).view.set := by
  have h0 : (i 0).val < 32768 := (i 0).isLt
  have h1 : (i 1).val < 2048 := (i 1).isLt
  have hN : cfg0.N = 64 := N_0
  obtain ⟨t, ht⟩ : ∃ t : Fin cfg0.N, t.val = (i 0).val / 512 := ⟨⟨(i 0).val / 512, by omega⟩, rfl⟩
  refine ⟨t, flush0_4 t, ?_⟩
  rw [mem_block]
  obtain ⟨-, -, -, -, -, -, -, -, e8, e9⟩ := index_facts t
  intro a
  match a with
  | ⟨0, _⟩ =>
    show win0_4.index t (0 : Fin 2) * 512 ≤ (i 0).val ∧ (i 0).val < win0_4.index t (0 : Fin 2) * 512 + 512
    rw [e8, ht]; omega
  | ⟨1, _⟩ =>
    show win0_4.index t (1 : Fin 2) * 2048 ≤ (i 1).val ∧ (i 1).val < win0_4.index t (1 : Fin 2) * 2048 + 2048
    rw [e9]; omega

/-- The output array after the run is the specification's function of the argument arrays. -/
theorem final (c : Dev nD) : (dats m 0 c).arrAt 4 cfg0.N = (G (m ((c : Thread nD τ).loc main_arg0)) (m ((c : Thread nD τ).loc main_arg1)) (m ((c : Thread nD τ).loc main_arg2)) (m ((c : Thread nD τ).loc main_arg3))) :=
  (dats m 0 c).arrAt_eq_of_cover 4 (G (m ((c : Thread nD τ).loc main_arg0)) (m ((c : Thread nD τ).loc main_arg1)) (m ((c : Thread nD τ).loc main_arg2)) (m ((c : Thread nD τ).loc main_arg3))) (fun t _ => flushed_is_block m c t) covered

/-- The kernel's run, with the output array named as that function and the arguments unchanged. -/
theorem run : θ_run defs (onTc (τ := τ) (main (F := Ideal))) ⟨m, fun _ => 0, ρ⟩ fun r => ∀ c : Dev nD,
      r.2.mem ((c : Thread nD τ).loc main_v3) = (G (m ((c : Thread nD τ).loc main_arg0)) (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.ArrayValue

end
-- ==== Proof.RefValue.lean ====
/-
  The reference, read one entry at a time, is the function `G` of the specification: its whole-array operations
  (broadcasts of the per-channel parameters down the rows, the reshape of each row into 64 groups of 32, the sums along
  the lanes, the broadcasts of the per-group mean and scale back over the lanes) are followed index by index, and
  what remains at an index is the scalar chain of the specification. The host's negation of `|c|` is the
  specification's; its sums start from the zero word, which is the real number zero.
-/
import proofs.«164090_j25056839205050_1_alg».proof.Proof.Gen.ReferenceIdeal.Read
import proofs.«164090_j25056839205050_1_alg».proof.Proof.Spec

noncomputable section

open scoped BigOperators

namespace Cert.ReferenceIdeal.RefValue

open Cert.ReferenceIdeal Cert.ReferenceIdeal.Read Cert.GroupNormSpec Idealize.ShloMosaic Idealize.ShloMosaic.ValueIdx

/-! ## Where each layout operation reads its operand -/

/-- A per-channel vector broadcast to one row and then down the rows is read at the channel. -/
theorem at_channel (r : Fin 32768) (c : Fin 2048) : idx_main_v0 (idx_main_v1 (ix2 r c)) = ix1 c :=
  funext fun a => Fin.ext (by match a with | ⟨0, _⟩ => rfl)
theorem at_channel_ga (r : Fin 32768) (c : Fin 2048) : idx_main_v42 (idx_main_v43 (ix2 r c)) = ix1 c :=
  funext fun a => Fin.ext (by match a with | ⟨0, _⟩ => rfl)
theorem at_channel_be (r : Fin 32768) (c : Fin 2048) : idx_main_v45 (idx_main_v46 (ix2 r c)) = ix1 c :=
  funext fun a => Fin.ext (by match a with | ⟨0, _⟩ => rfl)

/-- Lane `k` of group `g` of row `r` is channel `32 g + k` of the row. -/
theorem at_group (r : Fin 32768) (g : Fin 64) (k : Fin 32) : idx_main_v22 (ix3 r g k) = ix2 r (col g k) :=
  funext fun a => Fin.ext (by
    have hr := r.isLt; have hg := g.isLt; have hk := k.isLt
    match a with
    | ⟨0, _⟩ => show ((r.val * 64 + g.val) * 32 + k.val) / 2048 = r.val; omega
    | ⟨1, _⟩ => show ((r.val * 64 + g.val) * 32 + k.val) % 2048 = g.val * 32 + k.val; omega)

/-- Channel `q` of row `r` is lane `q mod 32` of group `q / 32`. -/
theorem at_flat (r : Fin 32768) (q : Fin 2048) : idx_main_v41 (ix2 r q) = ix3 r (grp q) (lane q) :=
  funext fun a => Fin.ext (by
    have hr := r.isLt; have hq := q.isLt
    match a with
    | ⟨0, _⟩ => show (r.val * 2048 + q.val) / 2048 = r.val; omega
    | ⟨1, _⟩ => show (r.val * 2048 + q.val) / 32 % 64 = q.val / 32; omega
    | ⟨2, _⟩ => show (r.val * 2048 + q.val) % 32 = q.val % 32; omega)

/-- The sums along the lanes at (row, group) run over that group's 32 lanes; a per-group value broadcast over the
    lanes is read at the group. -/
theorem sum_mean_at (r : Fin 32768) (g : Fin 64) (u : Fin 1) (k : Fin 32) :
    idx_main_v23 (idx_main_v24 (ix3 r g u)) k = ix3 r g k :=
  funext fun a => Fin.ext (by match a with | ⟨0, _⟩ => rfl | ⟨1, _⟩ => rfl | ⟨2, _⟩ => rfl)
theorem sum_var_at (r : Fin 32768) (g : Fin 64) (u : Fin 1) (k : Fin 32) :
    idx_main_v30 (idx_main_v31 (ix3 r g u)) k = ix3 r g k :=
  funext fun a => Fin.ext (by match a with | ⟨0, _⟩ => rfl | ⟨1, _⟩ => rfl | ⟨2, _⟩ => rfl)
theorem over_lanes_27 (r : Fin 32768) (g : Fin 64) (k : Fin 32) : idx_main_v27 (ix3 r g k) = ix3 r g (0 : Fin 1) :=
  funext fun a => Fin.ext (by match a with | ⟨0, _⟩ => rfl | ⟨1, _⟩ => rfl | ⟨2, _⟩ => rfl)
theorem over_lanes_37 (r : Fin 32768) (g : Fin 64) (k : Fin 32) : idx_main_v37 (ix3 r g k) = ix3 r g (0 : Fin 1) :=
  funext fun a => Fin.ext (by match a with | ⟨0, _⟩ => rfl | ⟨1, _⟩ => rfl | ⟨2, _⟩ => rfl)
theorem over_lanes_39 (r : Fin 32768) (g : Fin 64) (k : Fin 32) : idx_main_v39 (ix3 r g k) = ix3 r g (0 : Fin 1) :=
  funext fun a => Fin.ext (by match a with | ⟨0, _⟩ => rfl | ⟨1, _⟩ => rfl | ⟨2, _⟩ => rfl)

/-- The absolute value of an extended real is the larger of it and its negation. -/
theorem abs_word (x : EReal) : FloatOps.absf (F := Ideal) (φ := .f32) x = max x (-x) := rfl

variable (x0 : (⟨S32768x2048, .f32⟩ : BufTy).Contents (Elt Ideal)) (x1 x2 x3 : (⟨S2048, .f32⟩ : BufTy).Contents (Elt Ideal))

/-! ## The activated entry, the group mean, the result -/

/-- Lane `k` of group `g` of row `r` of the activated array: the activation of the entry at channel `32 g + k` plus
    that channel's bias. -/
theorem activated (r : Fin 32768) (g : Fin 64) (k : Fin 32) :
    val_main_v22 (F := Ideal) x0 x1 (ix3 r g k) = act (x0 (ix2 r (col g k)) + x1 (ix1 (col g k))) := by
  rw [val_main_v22_apply, at_group]
  simp only [val_main_v21_apply, val_main_v20_apply, val_main_v19_apply, val_main_v18_apply, val_main_cst_6_apply,
    val_main_v17_apply, val_main_v16_apply, val_main_cst_5_apply, val_main_v15_apply, val_main_v14_apply,
    val_main_v13_apply, val_main_cst_4_apply, val_main_v12_apply, val_main_v11_apply, val_main_call1_v4_apply,
    val_main_call1_v3_apply, val_main_cst_3_apply, val_main_call1_v2_apply, val_main_call1_v1_apply,
    val_main_call1_v0_apply, val_main_cst_2_apply, val_main_v10_apply, val_main_v9_apply, val_main_v8_apply,
    val_main_v7_apply, val_main_v6_apply, val_main_v5_apply, val_main_v4_apply, val_main_cst_1_apply,
    val_main_v3_apply, val_main_call0_v4_apply, val_main_call0_v3_apply, val_main_cst_0_apply,
    val_main_call0_v2_apply, val_main_call0_v1_apply, val_main_call0_v0_apply, val_main_cst_apply,
    val_main_v2_apply, val_main_v1_apply, val_main_v0_apply, at_channel]
  simp only [Ideal.ofBits_def, Ideal.addf_def, Ideal.mulf_def, Ideal.hostDivf_def, Ideal.maximumf_def,
    Ideal.minimumf_def, Ideal.hostUnary_exp_def, Ideal.hostUnary_log1p_def, Ideal.hostNegf_def, Ideal.hostAbsf_def,
    Ideal.negf_def, abs_word, Ideal.ofBits_zero_f32]
  simp only [act, hardtanh, softplus, tanhRat]

/-- The group mean (kept with a unit lane axis): zero plus the sum of the activated group, over 32. -/
theorem group_mean (r : Fin 32768) (g : Fin 64) (u : Fin 1) :
    val_main_v26 (F := Ideal) x0 x1 (ix3 r g u) = gmean (fun k => val_main_v22 (F := Ideal) x0 x1 (ix3 r g k)) := by
  rw [val_main_v26_apply, val_main_v24_apply, val_main_v23_apply]
  simp only [sum_mean_at, val_main_v25_apply, val_main_cst_8_apply, val_main_cst_7_apply, Ideal.hostDivf_def,
    Ideal.ofBits_def, Ideal.ofBits_zero_f32, zero_add, gmean]

/-- The result at (row `r`, channel `q`) is the specification's row output of row `r`. -/
theorem entry (r : Fin 32768) (q : Fin 2048) :
    val_main_v47 (F := Ideal) x0 x1 x2 x3 (ix2 r q)
      = rowOut (fun q' => x0 (ix2 r q') + x1 (ix1 q')) (fun q' => x2 (ix1 q')) (fun q' => x3 (ix1 q')) q := by
  rw [val_main_v47_apply, val_main_v44_apply, val_main_v41_apply, at_flat, val_main_v40_apply, val_main_v38_apply,
    val_main_v37_apply, over_lanes_37, val_main_v39_apply, over_lanes_39, val_main_v36_apply, val_main_v35_apply,
    val_main_v33_apply, val_main_v31_apply, val_main_v30_apply, val_main_v43_apply, val_main_v42_apply, at_channel_ga,
    val_main_v46_apply, val_main_v45_apply, at_channel_be]
  simp only [sum_var_at, val_main_v29_apply, val_main_v28_apply, val_main_v27_apply, over_lanes_27, val_main_v32_apply,
    val_main_cst_10_apply, val_main_v34_apply, val_main_cst_11_apply, val_main_cst_9_apply, group_mean, activated]
  simp only [Ideal.ofBits_def, Ideal.addf_def, Ideal.subf_def, Ideal.mulf_def, Ideal.hostDivf_def,
    Ideal.hostUnary_rsqrt_def, Ideal.ofBits_zero_f32, zero_add, rowOut, gnorm]

/-- The reference's result array is the specification's function of the four arguments. -/
theorem reference_is_G : val_main_v47 (F := Ideal) x0 x1 x2 x3 = G x0 x1 x2 x3 := by
  funext i
  obtain ⟨r, q, rfl⟩ : ∃ (r : Fin 32768) (q : Fin 2048), i = ix2 r q := ⟨i 0, i 1, eq_ix2 i⟩
  exact entry x0 x1 x2 x3 r q

end Cert.ReferenceIdeal.RefValue

end
-- ==== Proof.lean ====
/- The proof of `Cert.Claim`: a fused bias-add, hard-tanh, fast-mish and group normalisation (64 groups of 32 channels,
   population variance, per-channel scale and shift) over a [32768, 2048] array, computed by a kernel tile of 512 rows at
   a time, against the same chain written with whole-array operations.

   On the extended reals both programs compute, entry by entry, ONE function of the four arguments
   (Proof/Spec.lean, `G`): every row is treated alone, so tiling the rows changes nothing; a reshape of a row into
   64 groups of 32 keeps row-major positions on both sides; the kernel's lane sum and the host's sum are the same sum of
   32 terms (the host's starts from the zero word, which is 0); the kernel's `0 - |c|` is the host's `-|c|`; division,
   exp, log1p and rsqrt are one function each at this instance; and all literals are the same words on both sides.
   No law used here needs finiteness, so the precondition is never opened.

   Proof/Layout.lean reads the tile's reshapes, broadcasts and lane sums at an index; Proof/Payload.lean reads the
   kernel body's stored value at an entry of a tile; Proof/ArrayValue.lean goes from the 64 tiles to the whole output
   array; Proof/RefValue.lean reads the reference at an entry. The three frames are the programs' runs with the
   results dropped; the kernel's idealisation rewrote nothing, so `preserves` is `True`. -/
import proofs.«164090_j25056839205050_1_alg».proof.Defs
import proofs.«164090_j25056839205050_1_alg».proof.Proof.Gen.Kernel
import proofs.«164090_j25056839205050_1_alg».proof.Proof.Gen.Kernel.Skeleton
import proofs.«164090_j25056839205050_1_alg».proof.Proof.Gen.Kernel.Launch
import proofs.«164090_j25056839205050_1_alg».proof.Proof.Gen.Kernel.Points
import proofs.«164090_j25056839205050_1_alg».proof.Proof.Gen.Kernel.Frame
import proofs.«164090_j25056839205050_1_alg».proof.Proof.Gen.KernelIdeal
import proofs.«164090_j25056839205050_1_alg».proof.Proof.Gen.KernelIdeal.Skeleton
import proofs.«164090_j25056839205050_1_alg».proof.Proof.Gen.KernelIdeal.Launch
import proofs.«164090_j25056839205050_1_alg».proof.Proof.Gen.KernelIdeal.Points
import proofs.«164090_j25056839205050_1_alg».proof.Proof.Gen.KernelIdeal.Frame
import proofs.«164090_j25056839205050_1_alg».proof.Proof.Gen.ReferenceIdeal
import proofs.«164090_j25056839205050_1_alg».proof.Proof.Gen.Pre_finite_inputs
import proofs.«164090_j25056839205050_1_alg».proof.Proof.Gen.KernelIdeal.Value
import proofs.«164090_j25056839205050_1_alg».proof.Proof.Gen.ReferenceIdeal.Run
import proofs.«164090_j25056839205050_1_alg».proof.Proof.Gen.ReferenceIdeal.Read
import proofs.«164090_j25056839205050_1_alg».proof.Proof.ArrayValue
import proofs.«164090_j25056839205050_1_alg».proof.Proof.RefValue
import Idealize.ShloMosaic.Adequacy
import Idealize.ShloMosaic.Init

noncomputable section

namespace Cert.Proof

open Idealize.ShloMosaic Idealize.SL.Sem

/-- The kernel run ends with the output array at `G` of the arguments; the reference run ends with its result at its
    composed term, which is `G` of ITS arguments, and the two memories agree on the arguments. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v47_eq, Cert.ReferenceIdeal.RefValue.reference_is_G,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
